-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x100 : Shape := ⟨2, ![600000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S2250000 : Shape := ⟨1, ![2250000]⟩
abbrev S204800 : Shape := ⟨1, ![204800]⟩
abbrev S_ : Shape := ⟨0, ![]⟩

class Facts : Prop where
  bcast_S_S600000x100 : S_.BroadcastsInDim S600000x100 (![] : Fin 0 → Fin S600000x100.rank)
  reducesTo_S600000x100_S_d0_1 : S600000x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg4 : FVec F S256x47 .f32) (main_arg5 : FVec F S256x47 .f32) (main_arg6 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x47 .f32 := Host.absf main_arg4
  let main_cst_6 : FVec F S_ .f32 := constant S_ .f32 0x7F800000#32
  let main_v20 : FVec F S256x47 .f32 := broadcastInDim S256x47 ![] bcast_S_S256x47 main_cst_6
  let main_v21 : IVec S256x47 1 := cmpf .olt main_v19 main_v20
  let main_c_7 : IVec S_ 1 := constantI S_ 1 1#1
  let main_v22 : IVec S_ 1 := (fun x v => Host.reduce IntOp.andi x v reducesTo_S256x47_S_d0_1 h_S_) main_v21 main_c_7
  let main_v23 : IVec S_ 1 := andi main_v18 main_v22
  let main_v24 : FVec F S256x47 .f32 := Host.absf main_arg5
  let main_cst_8 : FVec F S_ .f32 := constant S_ .f32 0x7F800000#32
  let main_v25 : FVec F S256x47 .f32 := broadcastInDim S256x47 ![] bcast_S_S256x47 main_cst_8
  let main_v26 : IVec S256x47 1 := cmpf .olt main_v24 main_v25
  let main_c_9 : IVec S_ 1 := constantI S_ 1 1#1
  let main_v27 : IVec S_ 1 := (fun x v => Host.reduce IntOp.andi x v reducesTo_S256x47_S_d0_1 h_S_) main_v26 main_c_9
  let main_v28 : IVec S_ 1 := andi main_v23 main_v27
  let main_v29 : FVec F S47 .f32 := Host.absf main_arg6
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S600000x100 .f32) (main_arg1 : FVec F S100x256 .f32) (main_arg2 : FVec F S100x256 .f32) (main_arg3 : FVec F S256 .f32) (main_arg4 : FVec F S256x47 .f32) (main_arg5 : FVec F S256x47 .f32) (main_arg6 : FVec F S47 .f32) (main_arg7 : IVec S2250000 32) (main_arg8 : IVec S2250000 32) (main_arg9 : IVec S204800 32) (main_arg10 : IVec S204800 32) : IVec S_ 1 :=
  let main_v0 : FVec F S600000x100 .f32 := Host.absf main_arg0
  let main_cst : FVec F S_ .f32 := constant S_ .f32 0x7F800000#32
  let main_v1 : FVec F S600000x100 .f32 := broadcastInDim S600000x100 ![] bcast_S_S600000x100 main_cst
  let main_v2 : IVec S600000x100 1 := cmpf .olt main_v0 main_v1
  let main_c : IVec S_ 1 := constantI S_ 1 1#1
  let main_v3 : IVec S_ 1 := (fun x v => Host.reduce IntOp.andi x v reducesTo_S600000x100_S_d0_1 h_S_) main_v2 main_c
  let main_v4 : FVec F S100x256 .f32 := Host.absf main_arg1
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S100x256 .f32 := Host.absf main_arg2
  let main_cst_2 : FVec F S_ .f32 := constant S_ .f32 0x7F800000#32
  let main_v10 : FVec F S100x256 .f32 := broadcastInDim S100x256 ![] bcast_S_S100x256 main_cst_2
  let main_v11 : IVec S100x256 1 := cmpf .olt main_v9 main_v10
  let main_c_3 : IVec S_ 1 := constantI S_ 1 1#1
  let main_v12 : IVec S_ 1 := (fun x v => Host.reduce IntOp.andi x v reducesTo_S100x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S600000x100 : Shape := ⟨2, ![600000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S2250000 : Shape := ⟨1, ![2250000]⟩
abbrev S204800 : Shape := ⟨1, ![204800]⟩
abbrev S_ : Shape := ⟨0, ![]⟩
abbrev S2250000x1 : Shape := ⟨2, ![2250000, 1]⟩
abbrev S2250000x100 : Shape := ⟨2, ![2250000, 100]⟩
abbrev S90000x100 : Shape := ⟨2, ![90000, 100]⟩
abbrev S90000 : Shape := ⟨1, ![90000]⟩
abbrev S90000x1 : Shape := ⟨2, ![90000, 1]⟩
abbrev S1x256 : Shape := ⟨2, ![1, 256]⟩
abbrev S90000x256 : Shape := ⟨2, ![90000, 256]⟩
abbrev S9000x100 : Shape := ⟨2, ![9000, 100]⟩
abbrev S9000x256 : Shape := ⟨2, ![9000, 256]⟩
abbrev S204800x1 : Shape := ⟨2, ![204800, 1]⟩
abbrev S204800x256 : Shape := ⟨2, ![204800, 256]⟩
abbrev S8192x256 : Shape := ⟨2, ![8192, 256]⟩
abbrev S8192 : Shape := ⟨1, ![8192]⟩
abbrev S8192x1 : Shape := ⟨2, ![8192, 1]⟩
abbrev S1x47 : Shape := ⟨2, ![1, 47]⟩
abbrev S8192x47 : Shape := ⟨2, ![8192, 47]⟩
abbrev S2048x256 : Shape := ⟨2, ![2048, 256]⟩
abbrev S2048x47 : Shape := ⟨2, ![2048, 47]⟩

abbrev nBuf : Space → Nat
  | .hbm => 67
  | .vmem => 18
  | .smem => 0
  | _ => 0

abbrev bufTy : (tb : Table) → Fin (tcTables nBuf tb) → BufTy
  | .hbm, ⟨0, _⟩ => ⟨S600000x100, .f32⟩
  | .hbm, ⟨1, _⟩ => ⟨S100x256, .f32⟩
  | .hbm, ⟨2, _⟩ => ⟨S100x256, .f32⟩
  | .hbm, ⟨3, _⟩ => ⟨S256, .f32⟩
  | .hbm, ⟨4, _⟩ => ⟨S256x47, .f32⟩
  | .hbm, ⟨5, _⟩ => ⟨S256x47, .f32⟩
  | .hbm, ⟨6, _⟩ => ⟨S47, .f32⟩
  | .hbm, ⟨7, _⟩ => ⟨S2250000, .i32⟩
  | .hbm, ⟨8, _⟩ => ⟨S2250000, .i32⟩
  | .hbm, ⟨9, _⟩ => ⟨S204800, .i32⟩
  | .hbm, ⟨10, _⟩ => ⟨S204800, .i32⟩
  | .hbm, ⟨11, _⟩ => ⟨S_, .i32⟩
  | .hbm, ⟨12, _⟩ => ⟨S2250000, .i32⟩
  | .hbm, ⟨13, _⟩ => ⟨S2250000, .i1⟩
  | .hbm, ⟨14, _⟩ => ⟨S_, .i32⟩
  | .hbm, ⟨15, _⟩ => ⟨S2250000, .i32⟩
  | .hbm, ⟨16, _⟩ => ⟨S2250000, .i32⟩
  | .hbm, ⟨17, _⟩ => ⟨S2250000, .i32⟩
  | .hbm, ⟨18, _⟩ => ⟨S2250000x1, .i32⟩
  | .hbm, ⟨19, _⟩ => ⟨S2250000x100, .f32⟩
  | .hbm, ⟨20, _⟩ => ⟨S_, .f32⟩
  | .hbm, ⟨21, _⟩ => ⟨S90000x100, .f32⟩
  | .hbm, ⟨22, _⟩ => ⟨S2250000x1, .i32⟩
  | .hbm, ⟨23, _⟩ => ⟨S90000x100, .f32⟩
  | .hbm, ⟨24, _⟩ => ⟨S_, .f32⟩
  | .hbm, ⟨25, _⟩ => ⟨S2250000, .f32⟩
  | .hbm, ⟨26, _⟩ => ⟨S_, .f32⟩
  | .hbm, ⟨27, _⟩ => ⟨S90000, .f32⟩
  | .hbm, ⟨28, _⟩ => ⟨S2250000x1, .i32⟩
  | .hbm, ⟨29, _⟩ => ⟨S90000, .f32⟩
  | .hbm, ⟨30, _⟩ => ⟨S_, .f32⟩
  | .hbm, ⟨31, _⟩ => ⟨S90000, .f32⟩
  | .hbm, ⟨32, _⟩ => ⟨S90000, .f32⟩
  | .hbm, ⟨33, _⟩ => ⟨S90000x1, .f32⟩
  | .hbm, ⟨34, _⟩ => ⟨S90000x100, .f32⟩
  | .hbm, ⟨35, _⟩ => ⟨S90000x100, .f32⟩
  | .hbm, ⟨36, _⟩ => ⟨S90000x100, .f32⟩
  | .hbm, ⟨37, _⟩ => ⟨S1x256, .f32⟩
  | .hbm, ⟨38, _⟩ => ⟨S90000x256, .f32⟩
  | .hbm, ⟨39, _⟩ => ⟨S_, .i32⟩
  | .hbm, ⟨40, _⟩ => ⟨S204800, .i32⟩
  | .hbm, ⟨41, _⟩ => ⟨S204800, .i1⟩
  | .hbm, ⟨42, _⟩ => ⟨S_, .i32⟩
  | .hbm, ⟨43, _⟩ => ⟨S204800, .i32⟩
  | .hbm, ⟨44, _⟩ => ⟨S204800, .i32⟩
  | .hbm, ⟨45, _⟩ => ⟨S204800, .i32⟩
  | .hbm, ⟨46, _⟩ => ⟨S204800x1, .i32⟩
  | .hbm, ⟨47, _⟩ => ⟨S204800x256, .f32⟩
  | .hbm, ⟨48, _⟩ => ⟨S_, .f32⟩
  | .hbm, ⟨49, _⟩ => ⟨S8192x256, .f32⟩
  | .hbm, ⟨50, _⟩ => ⟨S204800x1, .i32⟩
  | .hbm, ⟨51, _⟩ => ⟨S8192x256, .f32⟩
  | .hbm, ⟨52, _⟩ => ⟨S_, .f32⟩
  | .hbm, ⟨53, _⟩ => ⟨S204800, .f32⟩
  | .hbm, ⟨54, _⟩ => ⟨S_, .f32⟩
  | .hbm, ⟨55, _⟩ => ⟨S8192, .f32⟩
  | .hbm, ⟨56, _⟩ => ⟨S204800x1, .i32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S1x47, .f32⟩
  | .hbm, ⟨66, _⟩ => ⟨S8192x47, .f32⟩
  | .local _ .vmem, ⟨0, _⟩ => ⟨S9000x100, .f32⟩
  | .local _ .vmem, ⟨1, _⟩ => ⟨S9000x100, .f32⟩
  | .local _ .vmem, ⟨2, _⟩ => ⟨S9000x100, .f32⟩
  | .local _ .vmem, ⟨3, _⟩ => ⟨S9000x100, .f32⟩
  | .local _ .vmem, ⟨4, _⟩ => ⟨S100x256, .f32⟩
  | .local _ .vmem, ⟨5, _⟩ => ⟨S100x256, .f32⟩
  | .local _ .vmem, ⟨6, _⟩ => ⟨S1x256, .f32⟩
  | .local _ .vmem, ⟨7, _⟩ => ⟨S9000x256, .f32⟩
  | .local _ .vmem, ⟨8, _⟩ => ⟨S9000x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S256x47, .f32⟩
  | .local _ .vmem, ⟨14, _⟩ => ⟨S256x47, .f32⟩
  | .local _ .vmem, ⟨15, _⟩ => ⟨S1x47, .f32⟩
  | .local _ .vmem, ⟨16, _⟩ => ⟨S2048x47, .f32⟩
  | .local _ .vmem, ⟨17, _⟩ => ⟨S2048x47, .f32⟩
  | _, _ => ⟨S600000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S9000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S9000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x47 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x47 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x47 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x47 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S2250000 : S_.BroadcastsInDim S2250000 (![] : Fin 0 → Fin S2250000.rank)
  bcast_S2250000_S2250000x1_0 : S2250000.BroadcastsInDim S2250000x1 (![0] : Fin 1 → Fin S2250000x1.rank)
  bcast_S_S90000x100 : S_.BroadcastsInDim S90000x100 (![] : Fin 0 → Fin S90000x100.rank)
  bcast_S_S90000 : S_.BroadcastsInDim S90000 (![] : Fin 0 → Fin S90000.rank)
  bcast_S90000_S90000x1_0 : S90000.BroadcastsInDim S90000x1 (![0] : Fin 1 → Fin S90000x1.rank)
  bcast_S90000x1_S90000x100_0_1 : S90000x1.BroadcastsInDim S90000x100 (![0, 1] : Fin 2 → Fin S90000x100.rank)
  slices_S600000x100_S90000x100_0_0 : S600000x100.Slices ![0, 0] S90000x100
  shapeCasts_S256_S1x256 : S256.ShapeCasts S1x256
  inb_S9000x100_S9000x100_0_0 : ∀ a, (![0, 0] : Fin 2 → Nat) a + S9000x100.size a ≤ S9000x100.size a
  h_S9000x100 : 0 < S9000x100.numel
  shapeCasts_S9000x100_S9000x100 : S9000x100.ShapeCasts S9000x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S9000x256 : S1x256.Broadcasts S9000x256
  inb_S9000x256_S9000x256_0_0 : ∀ a, (![0, 0] : Fin 2 → Nat) a + S9000x256.size a ≤ S9000x256.size a
  h_S9000x256 : 0 < S9000x256.numel
  bcast_S_S204800 : S_.BroadcastsInDim S204800 (![] : Fin 0 → Fin S204800.rank)
  bcast_S204800_S204800x1_0 : S204800.BroadcastsInDim S204800x1 (![0] : Fin 1 → Fin S204800x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  slices_S90000x256_S8192x256_0_0 : S90000x256.Slices ![0, 0] S8192x256
  shapeCasts_S47_S1x47 : S47.ShapeCasts S1x47
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x47_S256x47_0_0 : ∀ a, (![0, 0] : Fin 2 → Nat) a + S256x47.size a ≤ S256x47.size a
  h_S256x47 : 0 < S256x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2048x47 : S1x47.Broadcasts S2048x47
  inb_S2048x47_S2048x47_0_0 : ∀ a, (![0, 0] : Fin 2 → Nat) a + S2048x47.size a ≤ S2048x47.size a
  h_S2048x47 : 0 < S2048x47.numel
  gather_S600000x100_S2250000x1_S2250000x100_1_0_n_n_0_1_1100_wf : GatherDims.WF S600000x100 S2250000x1 S2250000x100 [1] [0] [] [0] [] 1 ![1, 100]
  scatter_S90000x100_S2250000x1_S2250000x100_1_0_0_1_wf : ScatterDims.WF S90000x100 S2250000x1 S2250000x100 [1] [0] [0] 1
  scatter_S90000_S2250000x1_S2250000_n_0_0_1_wf : ScatterDims.WF S90000 S2250000x1 S2250000 [] [0] [0] 1
  dot_S9000x100_S100x256_S9000x256_1_0_0_1_n_n_wf : DotDims.WF S9000x100 S100x256 S9000x256 [1] [0] [0] [1] [] []
  gather_S90000x256_S204800x1_S204800x256_1_0_n_n_0_1_1256_wf : GatherDims.WF S90000x256 S204800x1 S204800x256 [1] [0] [] [0] [] 1 ![1, 256]
  scatter_S8192x256_S204800x1_S204800x256_1_0_0_1_wf : ScatterDims.WF S8192x256 S204800x1 S204800x256 [1] [0] [0] 1
  scatter_S8192_S204800x1_S204800_n_0_0_1_wf : ScatterDims.WF S8192 S204800x1 S204800 [] [0] [0] 1
  dot_S2048x256_S256x47_S2048x47_1_0_0_1_n_n_wf : DotDims.WF S2048x256 S256x47 S2048x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9000x100.size a ≤ S90000x100.size a
  hwx0_0 : ∀ i : grid0.Coords, EltTy.bits .f32 = 32 ∨ (Rect.block (s := S90000x100) S9000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9000x100.size a ≤ S90000x100.size a
  hwx0_1 : ∀ i : grid0.Coords, EltTy.bits .f32 = 32 ∨ (Rect.block (s := S90000x100) S9000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x256.size a ≤ S100x256.size a
  hwx0_2 : ∀ i : grid0.Coords, EltTy.bits .f32 = 32 ∨ (Rect.block (s := S100x256) S100x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x256.size a
  hwx0_3 : ∀ i : grid0.Coords, EltTy.bits .f32 = 32 ∨ (Rect.block (s := S100x256) S100x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S9000x256.size a ≤ S90000x256.size a
  hwx0_5 : ∀ i : grid0.Coords, EltTy.bits .f32 = 32 ∨ (Rect.block (s := S90000x256) S9000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x47.size a ≤ S256x47.size a
  hwx1_2 : ∀ i : grid1.Coords, EltTy.bits .f32 = 32 ∨ (Rect.block (s := S256x47) S256x47.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x47.size a ≤ S256x47.size a
  hwx1_3 : ∀ i : grid1.Coords, EltTy.bits .f32 = 32 ∨ (Rect.block (s := S256x47) S256x47.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x47.size a ≤ S1x47.size a
  hwx1_4 : ∀ i : grid1.Coords, EltTy.bits .f32 = 32 ∨ (Rect.block (s := S1x47) S1x47.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x47.size a ≤ S8192x47.size a
  hwx1_5 : ∀ i : grid1.Coords, EltTy.bits .f32 = 32 ∨ (Rect.block (s := S8192x47) S2048x47.size (cc1_transform_5 i) (hinb1_5 i)).WholeWords (EltTy.packing .f32)

variable [Facts₀]

def gather_S600000x100_S2250000x1_S2250000x100_1_0_n_n_0_1_1100 : GatherDims S600000x100 S2250000x1 S2250000x100 where
  offsetDims := [1]
  collapsedSliceDims := [0]
  operandBatchingDims := []
  startIndicesBatchingDims := []
  startIndexMap := [0]
  indexVectorDim := 1
  sliceSizes := ![1, 100]
  wf := gather_S600000x100_S2250000x1_S2250000x100_1_0_n_n_0_1_1100_wf
def scatter_S90000x100_S2250000x1_S2250000x100_1_0_0_1 : ScatterDims S90000x100 S2250000x1 S2250000x100 where
  updateWindowDims := [1]
  insertedWindowDims := [0]
  scatterDimsToOperandDims := [0]
  indexVectorDim := 1
  wf := scatter_S90000x100_S2250000x1_S2250000x100_1_0_0_1_wf
def scatter_S90000_S2250000x1_S2250000_n_0_0_1 : ScatterDims S90000 S2250000x1 S2250000 where
  updateWindowDims := []
  insertedWindowDims := [0]
  scatterDimsToOperandDims := [0]
  indexVectorDim := 1
  wf := scatter_S90000_S2250000x1_S2250000_n_0_0_1_wf
def dot_S9000x100_S100x256_S9000x256_1_0_0_1_n_n : DotDims S9000x100 S100x256 S9000x256 where
  lhsContracting := [1]
  rhsContracting := [0]
  lhsNonContracting := [0]
  rhsNonContracting := [1]
  lhsBatch := []
  rhsBatch := []
  wf := dot_S9000x100_S100x256_S9000x256_1_0_0_1_n_n_wf
def gather_S90000x256_S204800x1_S204800x256_1_0_n_n_0_1_1256 : GatherDims S90000x256 S204800x1 S204800x256 where
  offsetDims := [1]
  collapsedSliceDims := [0]
  operandBatchingDims := []
  startIndicesBatchingDims := []
  startIndexMap := [0]
  indexVectorDim := 1
  sliceSizes := ![1, 256]
  wf := gather_S90000x256_S204800x1_S204800x256_1_0_n_n_0_1_1256_wf
def scatter_S8192x256_S204800x1_S204800x256_1_0_0_1 : ScatterDims S8192x256 S204800x1 S204800x256 where
  updateWindowDims := [1]
  insertedWindowDims := [0]
  scatterDimsToOperandDims := [0]
  indexVectorDim := 1
  wf := scatter_S8192x256_S204800x1_S204800x256_1_0_0_1_wf
def scatter_S8192_S204800x1_S204800_n_0_0_1 : ScatterDims S8192 S204800x1 S204800 where
  updateWindowDims := []
  insertedWindowDims := [0]
  scatterDimsToOperandDims := [0]
  indexVectorDim := 1
  wf := scatter_S8192_S204800x1_S204800_n_0_0_1_wf
def dot_S2048x256_S256x47_S2048x47_1_0_0_1_n_n : DotDims S2048x256 S256x47 S2048x47 where
  lhsContracting := [1]
  rhsContracting := [0]
  lhsNonContracting := [0]
  rhsNonContracting := [1]
  lhsBatch := []
  rhsBatch := []
  wf := dot_S2048x256_S256x47_S2048x47_1_0_0_1_n_n_wf

abbrev win0_0 : Pipeline.Window sig grid0 :=
  Pipeline.Window.ofSpec (Memref.whole main_v19) S9000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S9000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S100x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S100x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S9000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x47.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x47.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x47.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2048x47.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S600000x100 : Shape := ⟨2, ![600000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S2250000 : Shape := ⟨1, ![2250000]⟩
abbrev S204800 : Shape := ⟨1, ![204800]⟩
abbrev S_ : Shape := ⟨0, ![]⟩
abbrev S2250000x1 : Shape := ⟨2, ![2250000, 1]⟩
abbrev S2250000x100 : Shape := ⟨2, ![2250000, 100]⟩
abbrev S90000x100 : Shape := ⟨2, ![90000, 100]⟩
abbrev S90000 : Shape := ⟨1, ![90000]⟩
abbrev S90000x1 : Shape := ⟨2, ![90000, 1]⟩
abbrev S90000x256 : Shape := ⟨2, ![90000, 256]⟩
abbrev S1x256 : Shape := ⟨2, ![1, 256]⟩
abbrev S204800x1 : Shape := ⟨2, ![204800, 1]⟩
abbrev S204800x256 : Shape := ⟨2, ![204800, 256]⟩
abbrev S8192x256 : Shape := ⟨2, ![8192, 256]⟩
abbrev S8192 : Shape := ⟨1, ![8192]⟩
abbrev S8192x1 : Shape := ⟨2, ![8192, 1]⟩
abbrev S8192x47 : Shape := ⟨2, ![8192, 47]⟩
abbrev S1x47 : Shape := ⟨2, ![1, 47]⟩

abbrev nBuf : Space → Nat
  | .hbm => 78
  | .vmem => 0
  | .smem => 0
  | _ => 0

abbrev bufTy : (tb : Table) → Fin (tcTables nBuf tb) → BufTy
  | .hbm, ⟨0, _⟩ => ⟨S600000x100, .f32⟩
  | .hbm, ⟨1, _⟩ => ⟨S100x256, .f32⟩
  | .hbm, ⟨2, _⟩ => ⟨S100x256, .f32⟩
  | .hbm, ⟨3, _⟩ => ⟨S256, .f32⟩
  | .hbm, ⟨4, _⟩ => ⟨S256x47, .f32⟩
  | .hbm, ⟨5, _⟩ => ⟨S256x47, .f32⟩
  | .hbm, ⟨6, _⟩ => ⟨S47, .f32⟩
  | .hbm, ⟨7, _⟩ => ⟨S2250000, .i32⟩
  | .hbm, ⟨8, _⟩ => ⟨S2250000, .i32⟩
  | .hbm, ⟨9, _⟩ => ⟨S204800, .i32⟩
  | .hbm, ⟨10, _⟩ => ⟨S204800, .i32⟩
  | .hbm, ⟨11, _⟩ => ⟨S_, .i32⟩
  | .hbm, ⟨12, _⟩ => ⟨S2250000, .i32⟩
  | .hbm, ⟨13, _⟩ => ⟨S2250000, .i1⟩
  | .hbm, ⟨14, _⟩ => ⟨S_, .i32⟩
  | .hbm, ⟨15, _⟩ => ⟨S2250000, .i32⟩
  | .hbm, ⟨16, _⟩ => ⟨S2250000, .i32⟩
  | .hbm, ⟨17, _⟩ => ⟨S2250000, .i32⟩
  | .hbm, ⟨18, _⟩ => ⟨S2250000x1, .i32⟩
  | .hbm, ⟨19, _⟩ => ⟨S2250000x100, .f32⟩
  | .hbm, ⟨20, _⟩ => ⟨S_, .f32⟩
  | .hbm, ⟨21, _⟩ => ⟨S90000x100, .f32⟩
  | .hbm, ⟨22, _⟩ => ⟨S2250000x1, .i32⟩
  | .hbm, ⟨23, _⟩ => ⟨S90000x100, .f32⟩
  | .hbm, ⟨24, _⟩ => ⟨S_, .f32⟩
  | .hbm, ⟨25, _⟩ => ⟨S2250000, .f32⟩
  | .hbm, ⟨26, _⟩ => ⟨S_, .f32⟩
  | .hbm, ⟨27, _⟩ => ⟨S90000, .f32⟩
  | .hbm, ⟨28, _⟩ => ⟨S2250000x1, .i32⟩
  | .hbm, ⟨29, _⟩ => ⟨S90000, .f32⟩
  | .hbm, ⟨30, _⟩ => ⟨S_, .f32⟩
  | .hbm, ⟨31, _⟩ => ⟨S90000, .f32⟩
  | .hbm, ⟨32, _⟩ => ⟨S90000, .f32⟩
  | .hbm, ⟨33, _⟩ => ⟨S90000x1, .f32⟩
  | .hbm, ⟨34, _⟩ => ⟨S90000x100, .f32⟩
  | .hbm, ⟨35, _⟩ => ⟨S90000x100, .f32⟩
  | .hbm, ⟨36, _⟩ => ⟨S90000x100, .f32⟩
  | .hbm, ⟨37, _⟩ => ⟨S90000x256, .f32⟩
  | .hbm, ⟨38, _⟩ => ⟨S90000x256, .f32⟩
  | .hbm, ⟨39, _⟩ => ⟨S90000x256, .f32⟩
  | .hbm, ⟨40, _⟩ => ⟨S1x256, .f32⟩
  | .hbm, ⟨41, _⟩ => ⟨S90000x256, .f32⟩
  | .hbm, ⟨42, _⟩ => ⟨S90000x256, .f32⟩
  | .hbm, ⟨43, _⟩ => ⟨S_, .f32⟩
  | .hbm, ⟨44, _⟩ => ⟨S90000x256, .f32⟩
  | .hbm, ⟨45, _⟩ => ⟨S90000x256, .f32⟩
  | .hbm, ⟨46, _⟩ => ⟨S_, .i32⟩
  | .hbm, ⟨47, _⟩ => ⟨S204800, .i32⟩
  | .hbm, ⟨48, _⟩ => ⟨S204800, .i1⟩
  | .hbm, ⟨49, _⟩ => ⟨S_, .i32⟩
  | .hbm, ⟨50, _⟩ => ⟨S204800, .i32⟩
  | .hbm, ⟨51, _⟩ => ⟨S204800, .i32⟩
  | .hbm, ⟨52, _⟩ => ⟨S204800, .i32⟩
  | .hbm, ⟨53, _⟩ => ⟨S204800x1, .i32⟩
  | .hbm, ⟨54, _⟩ => ⟨S204800x256, .f32⟩
  | .hbm, ⟨55, _⟩ => ⟨S_, .f32⟩
  | .hbm, ⟨56, _⟩ => ⟨S8192x256, .f32⟩
  | .hbm, ⟨57, _⟩ => ⟨S204800x1, .i32⟩
  | .hbm, ⟨58, _⟩ => ⟨S8192x256, .f32⟩
  | .hbm, ⟨59, _⟩ => ⟨S_, .f32⟩
  | .hbm, ⟨60, _⟩ => ⟨S204800, .f32⟩
  | .hbm, ⟨61, _⟩ => ⟨S_, .f32⟩
  | .hbm, ⟨62, _⟩ => ⟨S8192, .f32⟩
  | .hbm, ⟨63, _⟩ => ⟨S204800x1, .i32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S8192x47, .f32⟩
  | .hbm, ⟨73, _⟩ => ⟨S8192x47, .f32⟩
  | .hbm, ⟨74, _⟩ => ⟨S8192x47, .f32⟩
  | .hbm, ⟨75, _⟩ => ⟨S1x47, .f32⟩
  | .hbm, ⟨76, _⟩ => ⟨S8192x47, .f32⟩
  | .hbm, ⟨77, _⟩ => ⟨S8192x47, .f32⟩
  | _, _ => ⟨S600000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  bcast_S_S2250000 : S_.BroadcastsInDim S2250000 (![] : Fin 0 → Fin S2250000.rank)
  bcast_S2250000_S2250000x1_0 : S2250000.BroadcastsInDim S2250000x1 (![0] : Fin 1 → Fin S2250000x1.rank)
  bcast_S_S90000x100 : S_.BroadcastsInDim S90000x100 (![] : Fin 0 → Fin S90000x100.rank)
  bcast_S_S90000 : S_.BroadcastsInDim S90000 (![] : Fin 0 → Fin S90000.rank)
  bcast_S90000_S90000x1_0 : S90000.BroadcastsInDim S90000x1 (![0] : Fin 1 → Fin S90000x1.rank)
  bcast_S90000x1_S90000x100_0_1 : S90000x1.BroadcastsInDim S90000x100 (![0, 1] : Fin 2 → Fin S90000x100.rank)
  slices_S600000x100_S90000x100_0_0 : S600000x100.Slices ![0, 0] S90000x100
  bcast_S256_S1x256_1 : S256.BroadcastsInDim S1x256 (![1] : Fin 1 → Fin S1x256.rank)
  bcast_S1x256_S90000x256_0_1 : S1x256.BroadcastsInDim S90000x256 (![0, 1] : Fin 2 → Fin S90000x256.rank)
  bcast_S_S90000x256 : S_.BroadcastsInDim S90000x256 (![] : Fin 0 → Fin S90000x256.rank)
  bcast_S_S204800 : S_.BroadcastsInDim S204800 (![] : Fin 0 → Fin S204800.rank)
  bcast_S204800_S204800x1_0 : S204800.BroadcastsInDim S204800x1 (![0] : Fin 1 → Fin S204800x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  slices_S90000x256_S8192x256_0_0 : S90000x256.Slices ![0, 0] S8192x256
  bcast_S47_S1x47_1 : S47.BroadcastsInDim S1x47 (![1] : Fin 1 → Fin S1x47.rank)
  bcast_S1x47_S8192x47_0_1 : S1x47.BroadcastsInDim S8192x47 (![0, 1] : Fin 2 → Fin S8192x47.rank)
  gather_S600000x100_S2250000x1_S2250000x100_1_0_n_n_0_1_1100_wf : GatherDims.WF S600000x100 S2250000x1 S2250000x100 [1] [0] [] [0] [] 1 ![1, 100]
  scatter_S90000x100_S2250000x1_S2250000x100_1_0_0_1_wf : ScatterDims.WF S90000x100 S2250000x1 S2250000x100 [1] [0] [0] 1
  scatter_S90000_S2250000x1_S2250000_n_0_0_1_wf : ScatterDims.WF S90000 S2250000x1 S2250000 [] [0] [0] 1
  dot_S90000x100_S100x256_S90000x256_1_0_0_1_n_n_wf : DotDims.WF S90000x100 S100x256 S90000x256 [1] [0] [0] [1] [] []
  gather_S90000x256_S204800x1_S204800x256_1_0_n_n_0_1_1256_wf : GatherDims.WF S90000x256 S204800x1 S204800x256 [1] [0] [] [0] [] 1 ![1, 256]
  scatter_S8192x256_S204800x1_S204800x256_1_0_0_1_wf : ScatterDims.WF S8192x256 S204800x1 S204800x256 [1] [0] [0] 1
  scatter_S8192_S204800x1_S204800_n_0_0_1_wf : ScatterDims.WF S8192 S204800x1 S204800 [] [0] [0] 1
  dot_S8192x256_S256x47_S8192x47_1_0_0_1_n_n_wf : DotDims.WF S8192x256 S256x47 S8192x47 [1] [0] [0] [1] [] []

variable [Facts₀]

def gather_S600000x100_S2250000x1_S2250000x100_1_0_n_n_0_1_1100 : GatherDims S600000x100 S2250000x1 S2250000x100 where
  offsetDims := [1]
  collapsedSliceDims := [0]
  operandBatchingDims := []
  startIndicesBatchingDims := []
  startIndexMap := [0]
  indexVectorDim := 1
  sliceSizes := ![1, 100]
  wf := gather_S600000x100_S2250000x1_S2250000x100_1_0_n_n_0_1_1100_wf
def scatter_S90000x100_S2250000x1_S2250000x100_1_0_0_1 : ScatterDims S90000x100 S2250000x1 S2250000x100 where
  updateWindowDims := [1]
  insertedWindowDims := [0]
  scatterDimsToOperandDims := [0]
  indexVectorDim := 1
  wf := scatter_S90000x100_S2250000x1_S2250000x100_1_0_0_1_wf
def scatter_S90000_S2250000x1_S2250000_n_0_0_1 : ScatterDims S90000 S2250000x1 S2250000 where
  updateWindowDims := []
  insertedWindowDims := [0]
  scatterDimsToOperandDims := [0]
  indexVectorDim := 1
  wf := scatter_S90000_S2250000x1_S2250000_n_0_0_1_wf
def dot_S90000x100_S100x256_S90000x256_1_0_0_1_n_n : DotDims S90000x100 S100x256 S90000x256 where
  lhsContracting := [1]
  rhsContracting := [0]
  lhsNonContracting := [0]
  rhsNonContracting := [1]
  lhsBatch := []
  rhsBatch := []
  wf := dot_S90000x100_S100x256_S90000x256_1_0_0_1_n_n_wf
def gather_S90000x256_S204800x1_S204800x256_1_0_n_n_0_1_1256 : GatherDims S90000x256 S204800x1 S204800x256 where
  offsetDims := [1]
  collapsedSliceDims := [0]
  operandBatchingDims := []
  startIndicesBatchingDims := []
  startIndexMap := [0]
  indexVectorDim := 1
  sliceSizes := ![1, 256]
  wf := gather_S90000x256_S204800x1_S204800x256_1_0_n_n_0_1_1256_wf
def scatter_S8192x256_S204800x1_S204800x256_1_0_0_1 : ScatterDims S8192x256 S204800x1 S204800x256 where
  updateWindowDims := [1]
  insertedWindowDims := [0]
  scatterDimsToOperandDims := [0]
  indexVectorDim := 1
  wf := scatter_S8192x256_S204800x1_S204800x256_1_0_0_1_wf
def scatter_S8192_S204800x1_S204800_n_0_0_1 : ScatterDims S8192 S204800x1 S204800 where
  updateWindowDims := []
  insertedWindowDims := [0]
  scatterDimsToOperandDims := [0]
  indexVectorDim := 1
  wf := scatter_S8192_S204800x1_S204800_n_0_0_1_wf
def dot_S8192x256_S256x47_S8192x47_1_0_0_1_n_n : DotDims S8192x256 S256x47 S8192x47 where
  lhsContracting := [1]
  rhsContracting := [0]
  lhsNonContracting := [0]
  rhsNonContracting := [1]
  lhsBatch := []
  rhsBatch := []
  wf := dot_S8192x256_S256x47_S8192x47_1_0_0_1_n_n_wf

class Facts : Prop extends Facts₀ where

variable [Facts]
-- ==== Proof.Host.lean ====
/-
  The arrays each pallas_call finds when it is entered.

  Before the first call the host slices the first 90000 rows of the features (the destination nodes are a prefix of the
  source nodes), forms the neighbour mean (gather the source rows, add them up per destination, divide by the in-degree
  clamped below at one) and reshapes the bias to one row. Before the second call it does the same to the first layer's
  result. These are the very operations the reference applies, so each entry array is the reference's corresponding
  stage; the neighbour mean is carried as that one stage and never opened.
-/
import proofs.«120763_j73993696576014_1_alg».proof.Proof.Gen.KernelIdeal.Frame
import proofs.«120763_j73993696576014_1_alg».proof.Proof.Gen.ReferenceIdeal.Read
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Entering the first call -/

/-- The destination features: the first 90000 rows. -/
theorem hd0 (c : Dev nD) : V1 m ρ c main_v19 = Cert.ReferenceIdeal.Read.val_main_v19 (F := Ideal) (m ((c : Thread nD τ).loc main_arg0)) := by
  show StableHlo.after hostOps0 (W0 m ρ c) (Proc.devRef .tc main_v19) = _
  after_results_simp <;> rfl

/-- The neighbour mean of the features. -/
theorem hn0 (c : Dev nD) : V1 m ρ c main_v18 = Cert.ReferenceIdeal.Read.val_main_v18 (F := Ideal) (m ((c : Thread nD τ).loc main_arg0)) (m ((c : Thread nD τ).loc main_arg7)) (m ((c : Thread nD τ).loc main_arg8)) := by
  show StableHlo.after hostOps0 (W0 m ρ c) (Proc.devRef .tc main_v18) = _
  after_results_simp <;> rfl

theorem ws0 (c : Dev nD) : V1 m ρ c main_arg1 = (m ((c : Thread nD τ).loc main_arg1)) := by
  show StableHlo.after hostOps0 (W0 m ρ c) (Proc.devRef .tc main_arg1) = _
  after_results_simp <;> rfl

theorem wn0 (c : Dev nD) : V1 m ρ c main_arg2 = (m ((c : Thread nD τ).loc main_arg2)) := by
  show StableHlo.after hostOps0 (W0 m ρ c) (Proc.devRef .tc main_arg2) = _
  after_results_simp <;> rfl

/-- The bias as one row. -/
theorem b0 (c : Dev nD) : V1 m ρ c main_v20 = shapeCast S1x256 (m ((c : Thread nD τ).loc main_arg3)) shapeCasts_S256_S1x256 := by
  show StableHlo.after hostOps0 (W0 m ρ c) (Proc.devRef .tc main_v20) = _
  after_results_simp <;> rfl

/-! ## Entering the second call -/

/-- No host operation before the first call and no window of it writes an argument the second stretch reads. -/
theorem kept4 (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp <;> rfl)
theorem kept5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)
theorem kept6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)
theorem kept9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)
theorem kept10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results_simp <;> rfl)

section SecondCall

variable (c : Dev nD)
  (hfirst : W2 m ρ c (Proc.devRef .tc main_v21) = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)))
include hfirst

/-- The destination features: the first 8192 rows of the first layer's result. -/
theorem hd1 : V3 m ρ c main_v41 = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  show StableHlo.after hostOps1 (W2 m ρ c) (Proc.devRef .tc main_v41) = _
  after_results_simp
  rw [hfirst]
  rfl

/-- The neighbour mean of the first layer's result. -/
theorem hn1 : V3 m ρ c main_v40 = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) := by
  show StableHlo.after hostOps1 (W2 m ρ c) (Proc.devRef .tc main_v40) = _
  after_results_simp
  rw [hfirst, kept9 m ρ c, kept10 m ρ c]
  rfl

end SecondCall

theorem ws1 (c : Dev nD) : V3 m ρ c main_arg4 = (m ((c : Thread nD τ).loc main_arg4)) := by
  show StableHlo.after hostOps1 (W2 m ρ c) (Proc.devRef .tc main_arg4) = _
  after_results_simp
  exact kept4 m ρ c

theorem wn1 (c : Dev nD) : V3 m ρ c main_arg5 = (m ((c : Thread nD τ).loc main_arg5)) := by
  show StableHlo.after hostOps1 (W2 m ρ c) (Proc.devRef .tc main_arg5) = _
  after_results_simp
  exact kept5 m ρ c

/-- The bias as one row. -/
theorem b1 (c : Dev nD) : V3 m ρ c main_v42 = shapeCast S1x47 (m ((c : Thread nD τ).loc main_arg6)) shapeCasts_S47_S1x47 := by
  show StableHlo.after hostOps1 (W2 m ρ c) (Proc.devRef .tc main_v42) = _
  after_results_simp
  rw [kept6 m ρ c]
  rfl

end Cert.KernelIdeal.Entry

end
-- ==== Proof.Region0.lean ====
/-
  Layer 0 of the two-layer mean-aggregation network, as the pipelined kernel computes it.

  The first pallas_call walks the 90000 destination rows in 10 blocks of 9000. At a block it loads the block's rows of
  the destination features `hd` and of the aggregated neighbour features `hn` (both 9000 × 100), the two whole weight
  matrices (100 × 256) and the bias row (1 × 256), and stores
      max (hd · Ws + hn · Wn + b, 0)
  for the block's rows. Over the extended reals a change of float format is the identity and a matrix product into a
  zero accumulator is the plain sum over the contracted axis, so entry (r, j) of the result array is
      max ((Σ_k hd[r,k]·Ws[k,j] + Σ_k hn[r,k]·Wn[k,j]) + b[0,j], 0)
  whatever block r lies in: each block written back is the restriction of ONE whole-array function (`comb`) of the
  arrays the region finds, and the 10 blocks tile the 90000 rows, so the array ends holding that function.
-/
import proofs.«120763_j73993696576014_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## A block's matrix product at an entry: the sum over the 100 contracted columns -/

theorem lhs_axis0 (j : S9000x256.Idx) (q : dot_S9000x100_S100x256_S9000x256_1_0_0_1_n_n.contr.Idx) :
    (dot_S9000x100_S100x256_S9000x256_1_0_0_1_n_n.lhsIdx j q 0).val = (j 0).val := by
  unfold DotDims.lhsIdx
  rw [dif_neg (show ¬(0 : Fin S9000x100.rank) ∈ dot_S9000x100_S100x256_S9000x256_1_0_0_1_n_n.lhsBatch by decide), dif_pos (show (0 : Fin S9000x100.rank) ∈ dot_S9000x100_S100x256_S9000x256_1_0_0_1_n_n.lhsNonContracting by decide)]
  rfl
theorem lhs_axis1 (j : S9000x256.Idx) (q : dot_S9000x100_S100x256_S9000x256_1_0_0_1_n_n.contr.Idx) :
    (dot_S9000x100_S100x256_S9000x256_1_0_0_1_n_n.lhsIdx j q 1).val = (q ⟨0, by decide⟩).val :=
  dot_S9000x100_S100x256_S9000x256_1_0_0_1_n_n.lhsIdx_val_of_single rfl j q
theorem rhs_axis0 (j : S9000x256.Idx) (q : dot_S9000x100_S100x256_S9000x256_1_0_0_1_n_n.contr.Idx) :
    (dot_S9000x100_S100x256_S9000x256_1_0_0_1_n_n.rhsIdx j q 0).val = (q ⟨0, by decide⟩).val :=
  dot_S9000x100_S100x256_S9000x256_1_0_0_1_n_n.rhsIdx_val_of_single rfl j q
theorem rhs_axis1 (j : S9000x256.Idx) (q : dot_S9000x100_S100x256_S9000x256_1_0_0_1_n_n.contr.Idx) :
    (dot_S9000x100_S100x256_S9000x256_1_0_0_1_n_n.rhsIdx j q 1).val = (j 1).val := by
  unfold DotDims.rhsIdx
  rw [dif_neg (show ¬(1 : Fin S100x256.rank) ∈ dot_S9000x100_S100x256_S9000x256_1_0_0_1_n_n.rhsBatch by decide), dif_pos (show (1 : Fin S100x256.rank) ∈ dot_S9000x100_S100x256_S9000x256_1_0_0_1_n_n.rhsNonContracting by decide)]
  rfl

/-- Row `p` of the left factor against column `q` of the right one. -/
theorem matmul_entry (x : FVec Ideal S9000x100 .bf16) (w : FVec Ideal S100x256 .bf16) (p : Fin 9000) (q : Fin 256) :
    matmul dot_S9000x100_S100x256_S9000x256_1_0_0_1_n_n none x w (constant S9000x256 .f32 0x00000000#32) (ix2 p q)
      = ∑ k : Fin 100, x (ix2 p k) * w (ix2 k q) := by
  show FloatOps.matmul dot_S9000x100_S100x256_S9000x256_1_0_0_1_n_n none x w (constant S9000x256 .f32 0x00000000#32) (ix2 p q) = _
  rw [Ideal.matmul_constant_zero_apply, ← Equiv.sum_comp (ValueIdx.contrEquiv1 dot_S9000x100_S100x256_S9000x256_1_0_0_1_n_n 100 rfl rfl).symm]
  refine Finset.sum_congr rfl fun k _ => ?_
  have hk := ValueIdx.contrEquiv1_symm_val dot_S9000x100_S100x256_S9000x256_1_0_0_1_n_n 100 rfl rfl k
  have el : dot_S9000x100_S100x256_S9000x256_1_0_0_1_n_n.lhsIdx (ix2 p q) ((ValueIdx.contrEquiv1 dot_S9000x100_S100x256_S9000x256_1_0_0_1_n_n 100 rfl rfl).symm k) = ix2 p k := funext fun a => Fin.ext (by
    match a with
    | ⟨0, _⟩ => exact lhs_axis0 _ _
    | ⟨1, _⟩ => exact (lhs_axis1 _ _).trans hk)
  have er : dot_S9000x100_S100x256_S9000x256_1_0_0_1_n_n.rhsIdx (ix2 p q) ((ValueIdx.contrEquiv1 dot_S9000x100_S100x256_S9000x256_1_0_0_1_n_n 100 rfl rfl).symm k) = ix2 k q := funext fun a => Fin.ext (by
    match a with
    | ⟨0, _⟩ => exact (rhs_axis0 _ _).trans hk
    | ⟨1, _⟩ => exact rhs_axis1 _ _)
  rw [el, er]

/-! ## What the body stores, entry by entry -/

/-- Entry `(p, q)` of the stored block from the five loaded blocks: the two products' sums, the bias entry of column
    `q`, and the maximum with zero. -/
theorem stored_entry (x0 x1 : Vec Ideal S9000x100 .f32) (x2 x3 : Vec Ideal S100x256 .f32) (x4 : Vec Ideal S1x256 .f32)
    (p : Fin 9000) (q : Fin 256) :
    k0_pay1 x0 x1 x2 x3 x4 (ix2 p q)
      = max ((∑ k : Fin 100, x0 (ix2 p k) * x2 (ix2 k q) + ∑ k : Fin 100, x1 (ix2 p k) * x3 (ix2 k q)) + x4 (ix2 (0 : Fin 1) q))
          (Ideal.ofBits .f32 0x00000000#32) := by
  unfold k0_pay1
  simp only [maximumf_apply, addf_apply, broadcast_apply]
  rw [matmul_entry, matmul_entry, broadcastTo_1b_ab_apply]
  simp only [truncf_apply, shapeCast_self]
  rfl

/-! ## The whole-array function -/

/-- Entry `(r, j)` of the layer's result from the five arrays the region reads. -/
def entry (hd hn : (⟨S90000x100, .f32⟩ : BufTy).Contents (Elt Ideal)) (ws wn : (⟨S100x256, .f32⟩ : BufTy).Contents (Elt Ideal))
    (b : (⟨S1x256, .f32⟩ : BufTy).Contents (Elt Ideal)) (r : Fin 90000) (j : Fin 256) : Elt Ideal .f32 :=
  max ((∑ k : Fin 100, hd (ix2 r k) * ws (ix2 k j) + ∑ k : Fin 100, hn (ix2 r k) * wn (ix2 k j)) + b (ix2 (0 : Fin 1) j))
    (Ideal.ofBits .f32 0x00000000#32)

/-- The layer's result as one function of the five arrays the region reads. -/
def comb (hd hn : (⟨S90000x100, .f32⟩ : BufTy).Contents (Elt Ideal)) (ws wn : (⟨S100x256, .f32⟩ : BufTy).Contents (Elt Ideal))
    (b : (⟨S1x256, .f32⟩ : BufTy).Contents (Elt Ideal)) : (⟨S90000x256, .f32⟩ : BufTy).Contents (Elt Ideal) :=
  fun i => entry hd hn ws wn b ⟨(i 0).val, (i 0).isLt⟩ ⟨(i 1).val, (i 1).isLt⟩

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks of the two feature windows move with the output's, which is the point's
    own number; every other block index is zero. -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The blocks the body loads, read off the arrays -/

/-- Row `p` of block `t` of the destination features is row `9000 t + p` of the array. -/
theorem read_hd (c : Dev nD) (t : Fin cfg0.N) (p : Fin 9000) (k : Fin 100) (r : Fin 90000) (hr : r.val = t.val * 9000 + p.val) :
    iblk0 V c 0 t (ix2 p k) = V c main_v19 (ix2 r k) := by
  obtain ⟨e50, e51, e00, e01, e10, e11, e20, e21, e30, e31, e40, e41⟩ := idx_facts t
  show V c main_v19 (((cfg0.win 0).blk t).view.emb (ix2 p k)) = V c main_v19 (ix2 r k)
  refine congrArg (V c main_v19) (funext fun a => Fin.ext ?_)
  match a with
  | ⟨0, _⟩ => show win0_0.index t (0 : Fin 2) * 9000 + 1 * p.val = r.val; omega
  | ⟨1, _⟩ => show win0_0.index t (1 : Fin 2) * 100 + 1 * k.val = k.val; omega

/-- The same for the aggregated neighbour features. -/
theorem read_hn (c : Dev nD) (t : Fin cfg0.N) (p : Fin 9000) (k : Fin 100) (r : Fin 90000) (hr : r.val = t.val * 9000 + p.val) :
    iblk0 V c 1 t (ix2 p k) = V c main_v18 (ix2 r k) := by
  obtain ⟨e50, e51, e00, e01, e10, e11, e20, e21, e30, e31, e40, e41⟩ := idx_facts t
  show V c main_v18 (((cfg0.win 1).blk t).view.emb (ix2 p k)) = V c main_v18 (ix2 r k)
  refine congrArg (V c main_v18) (funext fun a => Fin.ext ?_)
  match a with
  | ⟨0, _⟩ => show win0_1.index t (0 : Fin 2) * 9000 + 1 * p.val = r.val; omega
  | ⟨1, _⟩ => show win0_1.index t (1 : Fin 2) * 100 + 1 * k.val = k.val; omega

/-- The weight windows hold the whole matrices at every point. -/
theorem read_ws (c : Dev nD) (t : Fin cfg0.N) (k : Fin 100) (q j : Fin 256) (hj : j.val = q.val) :
    iblk0 V c 2 t (ix2 k q) = V c main_arg1 (ix2 k j) := by
  obtain ⟨e50, e51, e00, e01, e10, e11, e20, e21, e30, e31, e40, e41⟩ := idx_facts t
  show V c main_arg1 (((cfg0.win 2).blk t).view.emb (ix2 k q)) = V c main_arg1 (ix2 k j)
  refine congrArg (V c main_arg1) (funext fun a => Fin.ext ?_)
  match a with
  | ⟨0, _⟩ => show win0_2.index t (0 : Fin 2) * 100 + 1 * k.val = k.val; omega
  | ⟨1, _⟩ => show win0_2.index t (1 : Fin 2) * 256 + 1 * q.val = j.val; omega

theorem read_wn (c : Dev nD) (t : Fin cfg0.N) (k : Fin 100) (q j : Fin 256) (hj : j.val = q.val) :
    iblk0 V c 3 t (ix2 k q) = V c main_arg2 (ix2 k j) := by
  obtain ⟨e50, e51, e00, e01, e10, e11, e20, e21, e30, e31, e40, e41⟩ := idx_facts t
  show V c main_arg2 (((cfg0.win 3).blk t).view.emb (ix2 k q)) = V c main_arg2 (ix2 k j)
  refine congrArg (V c main_arg2) (funext fun a => Fin.ext ?_)
  match a with
  | ⟨0, _⟩ => show win0_3.index t (0 : Fin 2) * 100 + 1 * k.val = k.val; omega
  | ⟨1, _⟩ => show win0_3.index t (1 : Fin 2) * 256 + 1 * q.val = j.val; omega

/-- The bias window holds the whole bias row at every point. -/
theorem read_b (c : Dev nD) (t : Fin cfg0.N) (q j : Fin 256) (hj : j.val = q.val) :
    iblk0 V c 4 t (ix2 (0 : Fin 1) q) = V c main_v20 (ix2 (0 : Fin 1) j) := by
  obtain ⟨e50, e51, e00, e01, e10, e11, e20, e21, e30, e31, e40, e41⟩ := idx_facts t
  show V c main_v20 (((cfg0.win 4).blk t).view.emb (ix2 (0 : Fin 1) q)) = V c main_v20 (ix2 (0 : Fin 1) j)
  refine congrArg (V c main_v20) (funext fun a => Fin.ext ?_)
  match a with
  | ⟨0, _⟩ => show win0_4.index t (0 : Fin 2) * 1 + 1 * 0 = 0; omega
  | ⟨1, _⟩ => show win0_4.index t (1 : Fin 2) * 256 + 1 * q.val = j.val; omega

/-- Entry `(p, q)` of what the body stores at point `t` is entry `(9000 t + p, q)` of the layer's result. -/
theorem block_entry (c : Dev nD) (t : Fin cfg0.N) (p : Fin 9000) (q : Fin 256) (r : Fin 90000) (j : Fin 256)
    (hr : r.val = t.val * 9000 + p.val) (hj : j.val = q.val) :
    k0_pay1 (iblk0 V c 0 t) (iblk0 V c 1 t) (iblk0 V c 2 t) (iblk0 V c 3 t) (iblk0 V c 4 t) (ix2 p q)
      = entry (V c main_v19) (V c main_v18) (V c main_arg1) (V c main_arg2) (V c main_v20) r j := by
  refine (stored_entry _ _ _ _ _ p q).trans ?_
  unfold entry
  rw [read_b V c t q j hj]
  refine congrArg (fun s => max (s + V c main_v20 (ix2 (0 : Fin 1) j)) (Ideal.ofBits .f32 0x00000000#32)) ?_
  refine congrArg₂ (· + ·) (Finset.sum_congr rfl fun k _ => ?_) (Finset.sum_congr rfl fun k _ => ?_)
  · rw [read_hd V c t p k r hr, read_ws V c t k q j hj]
  · rw [read_hn V c t p k r hr, read_wn V c t k q j hj]

/-- WHAT POINT `t` WRITES BACK is block `t` of `comb` of the arrays as the region finds them. -/
theorem flushed_eq (c : Dev nD) (t : Fin cfg0.N) :
    (dat0 V c).flushed 5 t = ((cfg0.win 5).blk t).view.read (Elt Ideal)
      (comb (V c main_v19) (V c main_v18) (V c main_arg1) (V c main_arg2) (V c main_v20)) := by
  show (cfg0.win 5).cut (grid0.coords t) ((dat0 V c).after 5 t) = _
  rw [after0_5]
  unfold out0_5
  rw [View.canon_unit_zero hz]
  simp only [View.ld_unit_zero (S := S9000x100) hz, View.ld_unit_zero (S := S100x256) hz, View.ld_unit_zero (S := S1x256) hz]
  obtain ⟨e50, e51, e00, e01, e10, e11, e20, e21, e30, e31, e40, e41⟩ := idx_facts t
  funext j
  obtain ⟨p, q, rfl⟩ : ∃ (p : Fin 9000) (q : Fin 256), j = ix2 p q := ⟨j 0, j 1, eq_ix2 j⟩
  show k0_pay1 (iblk0 V c 0 t) (iblk0 V c 1 t) (iblk0 V c 2 t) (iblk0 V c 3 t) (iblk0 V c 4 t) (ix2 p q)
    = comb (V c main_v19) (V c main_v18) (V c main_arg1) (V c main_arg2) (V c main_v20) (((cfg0.win 5).blk t).view.emb (ix2 p q))
  refine block_entry V c t p q _ _ ?_ ?_
  · show win0_5.index t (0 : Fin 2) * 9000 + 1 * p.val = t.val * 9000 + p.val; omega
  · show win0_5.index t (1 : Fin 2) * 256 + 1 * q.val = q.val; omega

/-! ## The ten blocks tile the array -/

/-- An index of the array is in point `t`'s block iff each coordinate is in the block's range on its axis. -/
theorem mem_blk (t : Fin cfg0.N) (i : S90000x256.Idx) :
    i ∈ ((cfg0.win 5).blk t).view.set ↔ ∀ a : Fin 2, win0_5.index t a * S9000x256.size a ≤ (i a).val ∧ (i a).val < win0_5.index t a * S9000x256.size a + S9000x256.size a := by
  show i ∈ ((View.whole main_v21).slice (win0_5.rect t)).set ↔ _
  rw [View.set_slice_whole, Rect.mem_set_unit]
  exact Iff.rfl

/-- Row `r` lies in the block of point `r / 9000`. -/
theorem cover (i : S90000x256.Idx) : ∃ t : Fin cfg0.N, (cfg0.win 5).flush t = true ∧ i ∈ ((cfg0.win 5).blk t).view.set := by
  have hi0 : (i 0).val < 90000 := (i 0).isLt
  have hi1 : (i 1).val < 256 := (i 1).isLt
  have ht : (i 0).val / 9000 < cfg0.N := by show _ < 10; omega
  obtain ⟨e50, e51, -⟩ := idx_facts ⟨(i 0).val / 9000, ht⟩
  refine ⟨⟨(i 0).val / 9000, ht⟩, flush0_5 _, ?_⟩
  rw [mem_blk]
  intro a
  match a with
  | ⟨0, _⟩ =>
    show win0_5.index ⟨(i 0).val / 9000, ht⟩ (0 : Fin 2) * 9000 ≤ (i 0).val ∧ (i 0).val < win0_5.index ⟨(i 0).val / 9000, ht⟩ (0 : Fin 2) * 9000 + 9000
    have e : win0_5.index ⟨(i 0).val / 9000, ht⟩ (0 : Fin 2) = (i 0).val / 9000 := e50
    omega
  | ⟨1, _⟩ =>
    show win0_5.index ⟨(i 0).val / 9000, ht⟩ (1 : Fin 2) * 256 ≤ (i 1).val ∧ (i 1).val < win0_5.index ⟨(i 0).val / 9000, ht⟩ (1 : Fin 2) * 256 + 256
    omega

/-- THE ARRAY after the region: `comb` of the arrays as the region finds them. -/
theorem final (c : Dev nD) :
    (dat0 V c).arrAt 5 cfg0.N = comb (V c main_v19) (V c main_v18) (V c main_arg1) (V c main_arg2) (V c main_v20) :=
  (dat0 V c).arrAt_eq_of_cover 5 _ (fun t _ => flushed_eq V c t) cover

end Cert.KernelIdeal.Layer0

end
-- ==== Proof.Region1.lean ====
/-
  Layer 1 of the two-layer mean-aggregation network, as the pipelined kernel computes it.

  The second pallas_call walks the 8192 output rows in 4 blocks of 2048. At a block it loads the block's rows of the
  destination features `hd` and of the aggregated neighbour features `hn` (both 2048 × 256, rows of the first layer's
  result), the two whole weight matrices (256 × 47) and the bias row (1 × 47), and stores
      hd · Ws + hn · Wn + b
  for the block's rows (the last layer has no activation). Over the extended reals entry (r, j) of the result array is
      (Σ_k hd[r,k]·Ws[k,j] + Σ_k hn[r,k]·Wn[k,j]) + b[0,j]
  whatever block r lies in: each block written back is the restriction of ONE whole-array function (`comb`) of the
  arrays the region finds, and the 4 blocks tile the 8192 rows, so the array ends holding that function.
-/
import proofs.«120763_j73993696576014_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## A block's matrix product at an entry: the sum over the 256 contracted columns -/

theorem lhs_axis0 (j : S2048x47.Idx) (q : dot_S2048x256_S256x47_S2048x47_1_0_0_1_n_n.contr.Idx) :
    (dot_S2048x256_S256x47_S2048x47_1_0_0_1_n_n.lhsIdx j q 0).val = (j 0).val := by
  unfold DotDims.lhsIdx
  rw [dif_neg (show ¬(0 : Fin S2048x256.rank) ∈ dot_S2048x256_S256x47_S2048x47_1_0_0_1_n_n.lhsBatch by decide), dif_pos (show (0 : Fin S2048x256.rank) ∈ dot_S2048x256_S256x47_S2048x47_1_0_0_1_n_n.lhsNonContracting by decide)]
  rfl
theorem lhs_axis1 (j : S2048x47.Idx) (q : dot_S2048x256_S256x47_S2048x47_1_0_0_1_n_n.contr.Idx) :
    (dot_S2048x256_S256x47_S2048x47_1_0_0_1_n_n.lhsIdx j q 1).val = (q ⟨0, by decide⟩).val :=
  dot_S2048x256_S256x47_S2048x47_1_0_0_1_n_n.lhsIdx_val_of_single rfl j q
theorem rhs_axis0 (j : S2048x47.Idx) (q : dot_S2048x256_S256x47_S2048x47_1_0_0_1_n_n.contr.Idx) :
    (dot_S2048x256_S256x47_S2048x47_1_0_0_1_n_n.rhsIdx j q 0).val = (q ⟨0, by decide⟩).val :=
  dot_S2048x256_S256x47_S2048x47_1_0_0_1_n_n.rhsIdx_val_of_single rfl j q
theorem rhs_axis1 (j : S2048x47.Idx) (q : dot_S2048x256_S256x47_S2048x47_1_0_0_1_n_n.contr.Idx) :
    (dot_S2048x256_S256x47_S2048x47_1_0_0_1_n_n.rhsIdx j q 1).val = (j 1).val := by
  unfold DotDims.rhsIdx
  rw [dif_neg (show ¬(1 : Fin S256x47.rank) ∈ dot_S2048x256_S256x47_S2048x47_1_0_0_1_n_n.rhsBatch by decide), dif_pos (show (1 : Fin S256x47.rank) ∈ dot_S2048x256_S256x47_S2048x47_1_0_0_1_n_n.rhsNonContracting by decide)]
  rfl

/-- Row `p` of the left factor against column `q` of the right one. -/
theorem matmul_entry (x : FVec Ideal S2048x256 .bf16) (w : FVec Ideal S256x47 .bf16) (p : Fin 2048) (q : Fin 47) :
    matmul dot_S2048x256_S256x47_S2048x47_1_0_0_1_n_n none x w (constant S2048x47 .f32 0x00000000#32) (ix2 p q)
      = ∑ k : Fin 256, x (ix2 p k) * w (ix2 k q) := by
  show FloatOps.matmul dot_S2048x256_S256x47_S2048x47_1_0_0_1_n_n none x w (constant S2048x47 .f32 0x00000000#32) (ix2 p q) = _
  rw [Ideal.matmul_constant_zero_apply, ← Equiv.sum_comp (ValueIdx.contrEquiv1 dot_S2048x256_S256x47_S2048x47_1_0_0_1_n_n 256 rfl rfl).symm]
  refine Finset.sum_congr rfl fun k _ => ?_
  have hk := ValueIdx.contrEquiv1_symm_val dot_S2048x256_S256x47_S2048x47_1_0_0_1_n_n 256 rfl rfl k
  have el : dot_S2048x256_S256x47_S2048x47_1_0_0_1_n_n.lhsIdx (ix2 p q) ((ValueIdx.contrEquiv1 dot_S2048x256_S256x47_S2048x47_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2048x256_S256x47_S2048x47_1_0_0_1_n_n.rhsIdx (ix2 p q) ((ValueIdx.contrEquiv1 dot_S2048x256_S256x47_S2048x47_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## What the body stores, entry by entry -/

/-- Entry `(p, q)` of the stored block from the five loaded blocks: the two products' sums and the bias entry of
    column `q`. -/
theorem stored_entry (x0 x1 : Vec Ideal S2048x256 .f32) (x2 x3 : Vec Ideal S256x47 .f32) (x4 : Vec Ideal S1x47 .f32)
    (p : Fin 2048) (q : Fin 47) :
    k1_pay1 x0 x1 x2 x3 x4 (ix2 p q)
      = (∑ k : Fin 256, x0 (ix2 p k) * x2 (ix2 k q) + ∑ k : Fin 256, x1 (ix2 p k) * x3 (ix2 k q)) + x4 (ix2 (0 : Fin 1) q) := by
  unfold k1_pay1
  simp only [addf_apply]
  rw [matmul_entry, matmul_entry, broadcastTo_1b_ab_apply]
  simp only [truncf_apply, shapeCast_self]

/-! ## The whole-array function -/

/-- Entry `(r, j)` of the layer's result from the five arrays the region reads. -/
def entry (hd hn : (⟨S8192x256, .f32⟩ : BufTy).Contents (Elt Ideal)) (ws wn : (⟨S256x47, .f32⟩ : BufTy).Contents (Elt Ideal))
    (b : (⟨S1x47, .f32⟩ : BufTy).Contents (Elt Ideal)) (r : Fin 8192) (j : Fin 47) : Elt Ideal .f32 :=
  (∑ k : Fin 256, hd (ix2 r k) * ws (ix2 k j) + ∑ k : Fin 256, hn (ix2 r k) * wn (ix2 k j)) + b (ix2 (0 : Fin 1) j)

/-- The layer's result as one function of the five arrays the region reads. -/
def comb (hd hn : (⟨S8192x256, .f32⟩ : BufTy).Contents (Elt Ideal)) (ws wn : (⟨S256x47, .f32⟩ : BufTy).Contents (Elt Ideal))
    (b : (⟨S1x47, .f32⟩ : BufTy).Contents (Elt Ideal)) : (⟨S8192x47, .f32⟩ : BufTy).Contents (Elt Ideal) :=
  fun i => entry hd hn ws wn b ⟨(i 0).val, (i 0).isLt⟩ ⟨(i 1).val, (i 1).isLt⟩

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks of the two feature windows move with the output's, which is the point's
    own number; every other block index is zero. -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-! ## The blocks the body loads, read off the arrays -/

/-- Row `p` of block `t` of the destination features is row `2048 t + p` of the array. -/
theorem read_hd (c : Dev nD) (t : Fin cfg1.N) (p : Fin 2048) (k : Fin 256) (r : Fin 8192) (hr : r.val = t.val * 2048 + p.val) :
    iblk1 V c 0 t (ix2 p k) = V c main_v41 (ix2 r k) := by
  obtain ⟨e50, e51, e00, e01, e10, e11, e20, e21, e30, e31, e40, e41⟩ := idx_facts t
  show V c main_v41 (((cfg1.win 0).blk t).view.emb (ix2 p k)) = V c main_v41 (ix2 r k)
  refine congrArg (V c main_v41) (funext fun a => Fin.ext ?_)
  match a with
  | ⟨0, _⟩ => show win1_0.index t (0 : Fin 2) * 2048 + 1 * p.val = r.val; omega
  | ⟨1, _⟩ => show win1_0.index t (1 : Fin 2) * 256 + 1 * k.val = k.val; omega

/-- The same for the aggregated neighbour features. -/
theorem read_hn (c : Dev nD) (t : Fin cfg1.N) (p : Fin 2048) (k : Fin 256) (r : Fin 8192) (hr : r.val = t.val * 2048 + p.val) :
    iblk1 V c 1 t (ix2 p k) = V c main_v40 (ix2 r k) := by
  obtain ⟨e50, e51, e00, e01, e10, e11, e20, e21, e30, e31, e40, e41⟩ := idx_facts t
  show V c main_v40 (((cfg1.win 1).blk t).view.emb (ix2 p k)) = V c main_v40 (ix2 r k)
  refine congrArg (V c main_v40) (funext fun a => Fin.ext ?_)
  match a with
  | ⟨0, _⟩ => show win1_1.index t (0 : Fin 2) * 2048 + 1 * p.val = r.val; omega
  | ⟨1, _⟩ => show win1_1.index t (1 : Fin 2) * 256 + 1 * k.val = k.val; omega

/-- The weight windows hold the whole matrices at every point. -/
theorem read_ws (c : Dev nD) (t : Fin cfg1.N) (k : Fin 256) (q j : Fin 47) (hj : j.val = q.val) :
    iblk1 V c 2 t (ix2 k q) = V c main_arg4 (ix2 k j) := by
  obtain ⟨e50, e51, e00, e01, e10, e11, e20, e21, e30, e31, e40, e41⟩ := idx_facts t
  show V c main_arg4 (((cfg1.win 2).blk t).view.emb (ix2 k q)) = V c main_arg4 (ix2 k j)
  refine congrArg (V c main_arg4) (funext fun a => Fin.ext ?_)
  match a with
  | ⟨0, _⟩ => show win1_2.index t (0 : Fin 2) * 256 + 1 * k.val = k.val; omega
  | ⟨1, _⟩ => show win1_2.index t (1 : Fin 2) * 47 + 1 * q.val = j.val; omega

theorem read_wn (c : Dev nD) (t : Fin cfg1.N) (k : Fin 256) (q j : Fin 47) (hj : j.val = q.val) :
    iblk1 V c 3 t (ix2 k q) = V c main_arg5 (ix2 k j) := by
  obtain ⟨e50, e51, e00, e01, e10, e11, e20, e21, e30, e31, e40, e41⟩ := idx_facts t
  show V c main_arg5 (((cfg1.win 3).blk t).view.emb (ix2 k q)) = V c main_arg5 (ix2 k j)
  refine congrArg (V c main_arg5) (funext fun a => Fin.ext ?_)
  match a with
  | ⟨0, _⟩ => show win1_3.index t (0 : Fin 2) * 256 + 1 * k.val = k.val; omega
  | ⟨1, _⟩ => show win1_3.index t (1 : Fin 2) * 47 + 1 * q.val = j.val; omega

/-- The bias window holds the whole bias row at every point. -/
theorem read_b (c : Dev nD) (t : Fin cfg1.N) (q j : Fin 47) (hj : j.val = q.val) :
    iblk1 V c 4 t (ix2 (0 : Fin 1) q) = V c main_v42 (ix2 (0 : Fin 1) j) := by
  obtain ⟨e50, e51, e00, e01, e10, e11, e20, e21, e30, e31, e40, e41⟩ := idx_facts t
  show V c main_v42 (((cfg1.win 4).blk t).view.emb (ix2 (0 : Fin 1) q)) = V c main_v42 (ix2 (0 : Fin 1) j)
  refine congrArg (V c main_v42) (funext fun a => Fin.ext ?_)
  match a with
  | ⟨0, _⟩ => show win1_4.index t (0 : Fin 2) * 1 + 1 * 0 = 0; omega
  | ⟨1, _⟩ => show win1_4.index t (1 : Fin 2) * 47 + 1 * q.val = j.val; omega

/-- Entry `(p, q)` of what the body stores at point `t` is entry `(2048 t + p, q)` of the layer's result. -/
theorem block_entry (c : Dev nD) (t : Fin cfg1.N) (p : Fin 2048) (q : Fin 47) (r : Fin 8192) (j : Fin 47)
    (hr : r.val = t.val * 2048 + p.val) (hj : j.val = q.val) :
    k1_pay1 (iblk1 V c 0 t) (iblk1 V c 1 t) (iblk1 V c 2 t) (iblk1 V c 3 t) (iblk1 V c 4 t) (ix2 p q)
      = entry (V c main_v41) (V c main_v40) (V c main_arg4) (V c main_arg5) (V c main_v42) r j := by
  refine (stored_entry _ _ _ _ _ p q).trans ?_
  unfold entry
  rw [read_b V c t q j hj]
  refine congrArg (fun s => s + V c main_v42 (ix2 (0 : Fin 1) j)) ?_
  refine congrArg₂ (· + ·) (Finset.sum_congr rfl fun k _ => ?_) (Finset.sum_congr rfl fun k _ => ?_)
  · rw [read_hd V c t p k r hr, read_ws V c t k q j hj]
  · rw [read_hn V c t p k r hr, read_wn V c t k q j hj]

/-- WHAT POINT `t` WRITES BACK is block `t` of `comb` of the arrays as the region finds them. -/
theorem flushed_eq (c : Dev nD) (t : Fin cfg1.N) :
    (dat1 V c).flushed 5 t = ((cfg1.win 5).blk t).view.read (Elt Ideal)
      (comb (V c main_v41) (V c main_v40) (V c main_arg4) (V c main_arg5) (V c main_v42)) := by
  show (cfg1.win 5).cut (grid1.coords t) ((dat1 V c).after 5 t) = _
  rw [after1_5]
  unfold out1_5
  rw [View.canon_unit_zero hz]
  simp only [View.ld_unit_zero (S := S2048x256) hz, View.ld_unit_zero (S := S256x47) hz, View.ld_unit_zero (S := S1x47) hz]
  obtain ⟨e50, e51, e00, e01, e10, e11, e20, e21, e30, e31, e40, e41⟩ := idx_facts t
  funext j
  obtain ⟨p, q, rfl⟩ : ∃ (p : Fin 2048) (q : Fin 47), j = ix2 p q := ⟨j 0, j 1, eq_ix2 j⟩
  show k1_pay1 (iblk1 V c 0 t) (iblk1 V c 1 t) (iblk1 V c 2 t) (iblk1 V c 3 t) (iblk1 V c 4 t) (ix2 p q)
    = comb (V c main_v41) (V c main_v40) (V c main_arg4) (V c main_arg5) (V c main_v42) (((cfg1.win 5).blk t).view.emb (ix2 p q))
  refine block_entry V c t p q _ _ ?_ ?_
  · show win1_5.index t (0 : Fin 2) * 2048 + 1 * p.val = t.val * 2048 + p.val; omega
  · show win1_5.index t (1 : Fin 2) * 47 + 1 * q.val = q.val; omega

/-! ## The four blocks tile the array -/

/-- An index of the array is in point `t`'s block iff each coordinate is in the block's range on its axis. -/
theorem mem_blk (t : Fin cfg1.N) (i : S8192x47.Idx) :
    i ∈ ((cfg1.win 5).blk t).view.set ↔ ∀ a : Fin 2, win1_5.index t a * S2048x47.size a ≤ (i a).val ∧ (i a).val < win1_5.index t a * S2048x47.size a + S2048x47.size a := by
  show i ∈ ((View.whole main_v43).slice (win1_5.rect t)).set ↔ _
  rw [View.set_slice_whole, Rect.mem_set_unit]
  exact Iff.rfl

/-- Row `r` lies in the block of point `r / 2048`. -/
theorem cover (i : S8192x47.Idx) : ∃ t : Fin cfg1.N, (cfg1.win 5).flush t = true ∧ i ∈ ((cfg1.win 5).blk t).view.set := by
  have hi0 : (i 0).val < 8192 := (i 0).isLt
  have hi1 : (i 1).val < 47 := (i 1).isLt
  have ht : (i 0).val / 2048 < cfg1.N := by show _ < 4; omega
  obtain ⟨e50, e51, -⟩ := idx_facts ⟨(i 0).val / 2048, ht⟩
  refine ⟨⟨(i 0).val / 2048, ht⟩, flush1_5 _, ?_⟩
  rw [mem_blk]
  intro a
  match a with
  | ⟨0, _⟩ =>
    show win1_5.index ⟨(i 0).val / 2048, ht⟩ (0 : Fin 2) * 2048 ≤ (i 0).val ∧ (i 0).val < win1_5.index ⟨(i 0).val / 2048, ht⟩ (0 : Fin 2) * 2048 + 2048
    have e : win1_5.index ⟨(i 0).val / 2048, ht⟩ (0 : Fin 2) = (i 0).val / 2048 := e50
    omega
  | ⟨1, _⟩ =>
    show win1_5.index ⟨(i 0).val / 2048, ht⟩ (1 : Fin 2) * 47 ≤ (i 1).val ∧ (i 1).val < win1_5.index ⟨(i 0).val / 2048, ht⟩ (1 : Fin 2) * 47 + 47
    omega

/-- THE ARRAY after the region: `comb` of the arrays as the region finds them. -/
theorem final (c : Dev nD) :
    (dat1 V c).arrAt 5 cfg1.N = comb (V c main_v41) (V c main_v40) (V c main_arg4) (V c main_arg5) (V c main_v42) :=
  (dat1 V c).arrAt_eq_of_cover 5 _ (fun t _ => flushed_eq V c t) cover

end Cert.KernelIdeal.Layer1

end
-- ==== Proof.RefLayers.lean ====
/-
  The reference's stages are the same two functions.

  The reference computes each layer on the host: two `dot_general`s (over the extended reals, plain sums over the
  contracted axis), their sum, the bias broadcast along the rows, and for the first layer the maximum with zero. Entry
  by entry that is the function the kernel's blocks restrict (`Layer0.comb`, `Layer1.comb`) of the same five arrays:
  the sliced destination rows, the neighbour mean, the two weight matrices and the bias — the kernel reads the bias
  through a reshape to one row, the reference through a broadcast, and both read entry `j` of it in column `j`.
-/
import proofs.«120763_j73993696576014_1_alg».proof.Proof.Region0
import proofs.«120763_j73993696576014_1_alg».proof.Proof.Region1
import proofs.«120763_j73993696576014_1_alg».proof.Proof.Gen.ReferenceIdeal.Read
import Idealize.ShloMosaic.Lib.ValueLayout

set_option maxRecDepth 16384

noncomputable section

namespace Cert.KernelIdeal.RefLayers

open Cert.KernelIdeal Cert.KernelIdeal.Gen
open Idealize.ShloMosaic Idealize.ShloMosaic.TcCoe Idealize.SL.Sem Idealize.ShloMosaic.ValueIdx

variable (x0 : (⟨S600000x100, .f32⟩ : BufTy).Contents (Elt Ideal)) (x1 x2 : (⟨S100x256, .f32⟩ : BufTy).Contents (Elt Ideal))
  (x3 : (⟨S256, .f32⟩ : BufTy).Contents (Elt Ideal)) (x4 x5 : (⟨S256x47, .f32⟩ : BufTy).Contents (Elt Ideal))
  (x6 : (⟨S47, .f32⟩ : BufTy).Contents (Elt Ideal)) (x7 x8 : (⟨S2250000, .i32⟩ : BufTy).Contents (Elt Ideal))
  (x9 x10 : (⟨S204800, .i32⟩ : BufTy).Contents (Elt Ideal))

/-- The first layer's result in the reference, after its activation, is `Layer0.comb` of the reference's own stages. -/
theorem layer0 :
    Layer0.comb (Cert.ReferenceIdeal.Read.val_main_v19 (F := Ideal) x0) (Cert.ReferenceIdeal.Read.val_main_v18 (F := Ideal) x0 x7 x8) x1 x2
        (shapeCast S1x256 x3 shapeCasts_S256_S1x256)
      = Cert.ReferenceIdeal.Read.val_main_v26 (F := Ideal) x0 x1 x2 x3 x7 x8 := by
  funext i
  have el0 : ∀ k : Fin 100, Cert.ReferenceIdeal.Read.lidx_main_v20 i k = ix2 (⟨(i 0).val, (i 0).isLt⟩ : Fin 90000) k :=
    fun k => funext fun a => Fin.ext (by match a with | ⟨0, _⟩ => rfl | ⟨1, _⟩ => rfl)
  have er0 : ∀ k : Fin 100, Cert.ReferenceIdeal.Read.ridx_main_v20 i k = ix2 k (⟨(i 1).val, (i 1).isLt⟩ : Fin 256) :=
    fun k => funext fun a => Fin.ext (by match a with | ⟨0, _⟩ => rfl | ⟨1, _⟩ => rfl)
  have el1 : ∀ k : Fin 100, Cert.ReferenceIdeal.Read.lidx_main_v21 i k = ix2 (⟨(i 0).val, (i 0).isLt⟩ : Fin 90000) k :=
    fun k => funext fun a => Fin.ext (by match a with | ⟨0, _⟩ => rfl | ⟨1, _⟩ => rfl)
  have er1 : ∀ k : Fin 100, Cert.ReferenceIdeal.Read.ridx_main_v21 i k = ix2 k (⟨(i 1).val, (i 1).isLt⟩ : Fin 256) :=
    fun k => funext fun a => Fin.ext (by match a with | ⟨0, _⟩ => rfl | ⟨1, _⟩ => rfl)
  have eb : Cert.ReferenceIdeal.Read.idx_main_v23 (Cert.ReferenceIdeal.Read.idx_main_v24 i) = ix1 (⟨(i 1).val, (i 1).isLt⟩ : Fin 256) :=
    funext fun a => Fin.ext (by match a with | ⟨0, _⟩ => rfl)
  rw [Cert.ReferenceIdeal.Read.val_main_v26_apply, Cert.ReferenceIdeal.Read.val_main_v25_apply, Cert.ReferenceIdeal.Read.val_main_v22_apply, Cert.ReferenceIdeal.Read.val_main_v20_apply,
    Cert.ReferenceIdeal.Read.val_main_v21_apply, Cert.ReferenceIdeal.Read.val_main_v24_apply, Cert.ReferenceIdeal.Read.val_main_v23_apply, Cert.ReferenceIdeal.Read.val_main_call0_v0_apply,
    Cert.ReferenceIdeal.Read.val_main_call0_cst_apply, eb]
  simp only [Ideal.maximumf_def, Ideal.addf_def, Ideal.ofBits_def]
  show Layer0.entry _ _ _ _ _ (⟨(i 0).val, (i 0).isLt⟩ : Fin 90000) (⟨(i 1).val, (i 1).isLt⟩ : Fin 256) = _
  unfold Layer0.entry
  rw [shapeCast_a_1a_apply]
  refine congrArg (fun s => max (s + x3 (ix1 (⟨(i 1).val, (i 1).isLt⟩ : Fin 256))) (Ideal.ofBits .f32 0x00000000#32)) ?_
  refine congrArg₂ (· + ·) (Finset.sum_congr rfl fun k _ => ?_) (Finset.sum_congr rfl fun k _ => ?_)
  · rw [el0 k, er0 k]
  · rw [el1 k, er1 k]

/-- The program's result in the reference is `Layer1.comb` of the reference's own stages. -/
theorem layer1 :
    Layer1.comb (Cert.ReferenceIdeal.Read.val_main_v46 (F := Ideal) x0 x1 x2 x3 x7 x8) (Cert.ReferenceIdeal.Read.val_main_v45 (F := Ideal) x0 x1 x2 x3 x7 x8 x9 x10) x4 x5
        (shapeCast S1x47 x6 shapeCasts_S47_S1x47)
      = Cert.ReferenceIdeal.Read.val_main_v52 (F := Ideal) x0 x1 x2 x3 x4 x5 x6 x7 x8 x9 x10 := by
  funext i
  have el0 : ∀ k : Fin 256, Cert.ReferenceIdeal.Read.lidx_main_v47 i k = ix2 (⟨(i 0).val, (i 0).isLt⟩ : Fin 8192) k :=
    fun k => funext fun a => Fin.ext (by match a with | ⟨0, _⟩ => rfl | ⟨1, _⟩ => rfl)
  have er0 : ∀ k : Fin 256, Cert.ReferenceIdeal.Read.ridx_main_v47 i k = ix2 k (⟨(i 1).val, (i 1).isLt⟩ : Fin 47) :=
    fun k => funext fun a => Fin.ext (by match a with | ⟨0, _⟩ => rfl | ⟨1, _⟩ => rfl)
  have el1 : ∀ k : Fin 256, Cert.ReferenceIdeal.Read.lidx_main_v48 i k = ix2 (⟨(i 0).val, (i 0).isLt⟩ : Fin 8192) k :=
    fun k => funext fun a => Fin.ext (by match a with | ⟨0, _⟩ => rfl | ⟨1, _⟩ => rfl)
  have er1 : ∀ k : Fin 256, Cert.ReferenceIdeal.Read.ridx_main_v48 i k = ix2 k (⟨(i 1).val, (i 1).isLt⟩ : Fin 47) :=
    fun k => funext fun a => Fin.ext (by match a with | ⟨0, _⟩ => rfl | ⟨1, _⟩ => rfl)
  have eb : Cert.ReferenceIdeal.Read.idx_main_v50 (Cert.ReferenceIdeal.Read.idx_main_v51 i) = ix1 (⟨(i 1).val, (i 1).isLt⟩ : Fin 47) :=
    funext fun a => Fin.ext (by match a with | ⟨0, _⟩ => rfl)
  rw [Cert.ReferenceIdeal.Read.val_main_v52_apply, Cert.ReferenceIdeal.Read.val_main_v49_apply, Cert.ReferenceIdeal.Read.val_main_v47_apply, Cert.ReferenceIdeal.Read.val_main_v48_apply,
    Cert.ReferenceIdeal.Read.val_main_v51_apply, Cert.ReferenceIdeal.Read.val_main_v50_apply, eb]
  simp only [Ideal.addf_def]
  show Layer1.entry _ _ _ _ _ (⟨(i 0).val, (i 0).isLt⟩ : Fin 8192) (⟨(i 1).val, (i 1).isLt⟩ : Fin 47) = _
  unfold Layer1.entry
  rw [shapeCast_a_1a_apply]
  refine congrArg (fun s => s + x6 (ix1 (⟨(i 1).val, (i 1).isLt⟩ : Fin 47))) ?_
  refine congrArg₂ (· + ·) (Finset.sum_congr rfl fun k _ => ?_) (Finset.sum_congr rfl fun k _ => ?_)
  · rw [el0 k, er0 k]
  · rw [el1 k, er1 k]

end Cert.KernelIdeal.RefLayers

end
-- ==== Proof.Bridge.lean ====
/-
  The kernel program's result array, as a function of its arguments.

  The first pallas_call leaves in its output array the first layer's result (`Layer0.comb` of the arrays it found,
  which the host built from the arguments); the host then slices and aggregates that array, and the second
  pallas_call leaves in the program's result array `Layer1.comb` of those. Both are the reference's stages of the
  same arguments, so the result array ends at the reference's last stage.
-/
import proofs.«120763_j73993696576014_1_alg».proof.Proof.Host
import proofs.«120763_j73993696576014_1_alg».proof.Proof.RefLayers

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first call its output array holds the reference's first-layer stage of the arguments. -/
theorem first_layer (c : Dev nD) :
    W2 m ρ c (Proc.devRef .tc main_v21) = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  refine (W2_arr m ρ c 5).trans ((Layer0.final (V1 m ρ) c).trans ?_)
  rw [Entry.hd0 m ρ c, Entry.hn0 m ρ c, Entry.ws0 m ρ c, Entry.wn0 m ρ c, Entry.b0 m ρ c]
  exact RefLayers.layer0 _ _ _ _ _ _

/-- After the second call the result array holds the reference's last stage of the arguments. -/
theorem result (c : Dev nD) :
    (dat1 (V3 m ρ) c).arrAt 5 cfg1.N
      = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Layer1.final (V3 m ρ) c).trans ?_
  rw [Entry.hd1 m ρ c (first_layer m ρ c), Entry.hn1 m ρ c (first_layer m ρ c), Entry.ws1 m ρ c, Entry.wn1 m ρ c, Entry.b1 m ρ c]
  exact RefLayers.layer1 _ _ _ _ _ _ _ _ _ _ _

end Cert.KernelIdeal.Result

end
-- ==== Proof.lean ====
/-
  A two-layer graph network with mean aggregation: kernel against reference, over the extended reals.

  Each layer takes node features h, gathers the source rows of every edge, adds them up per destination node and
  divides by the destination's in-degree clamped below at one (the neighbour mean hn), takes the destination nodes'
  own rows hd (a prefix of h), and returns hd · Ws + hn · Wn + b; the first layer is followed by max(·, 0).
  The kernel program does the gather, the per-destination sum and the division on the host, exactly as the reference
  does, and only the dense combine hd · Ws + hn · Wn + b (with the activation) in a pipelined pallas_call over blocks
  of rows, the features cast to a narrower float format before the products. Over the extended reals a format change
  is the identity and a matrix product into a zero accumulator is the sum over the contracted axis, so every block the
  kernel writes is the restriction of the reference's own stage; the blocks tile the rows; hence after each call the
  output array IS the reference's stage of the same arguments (`Result.first_layer`, `Result.result`), the second call
  being fed by host operations applied to the first's array. No finiteness of the inputs is used: no algebraic law
  beyond 0 + x = x is needed, the two sides being the same sums in the same order.

  Frames: the kernel programs' are the generated frames; the reference's is its generated run with the result dropped.
  The idealization rewrote nothing, so `preserves` is trivial.
-/
import proofs.«120763_j73993696576014_1_alg».proof.Defs
import proofs.«120763_j73993696576014_1_alg».proof.Proof.Gen.Kernel
import proofs.«120763_j73993696576014_1_alg».proof.Proof.Gen.Kernel.Skeleton
import proofs.«120763_j73993696576014_1_alg».proof.Proof.Gen.Kernel.Launch
import proofs.«120763_j73993696576014_1_alg».proof.Proof.Gen.Kernel.Points
import proofs.«120763_j73993696576014_1_alg».proof.Proof.Gen.Kernel.Frame
import proofs.«120763_j73993696576014_1_alg».proof.Proof.Gen.KernelIdeal
import proofs.«120763_j73993696576014_1_alg».proof.Proof.Gen.KernelIdeal.Skeleton
import proofs.«120763_j73993696576014_1_alg».proof.Proof.Gen.KernelIdeal.Launch
import proofs.«120763_j73993696576014_1_alg».proof.Proof.Gen.KernelIdeal.Points
import proofs.«120763_j73993696576014_1_alg».proof.Proof.Gen.KernelIdeal.Frame
import proofs.«120763_j73993696576014_1_alg».proof.Proof.Gen.ReferenceIdeal
import proofs.«120763_j73993696576014_1_alg».proof.Proof.Gen.Pre_finite_inputs
import proofs.«120763_j73993696576014_1_alg».proof.Proof.Gen.ReferenceIdeal.Run
import proofs.«120763_j73993696576014_1_alg».proof.Proof.Gen.ReferenceIdeal.Read
import proofs.«120763_j73993696576014_1_alg».proof.Proof.KernelRun
import proofs.«120763_j73993696576014_1_alg».proof.Proof.Bridge
import Idealize.ShloMosaic.Adequacy
import Idealize.ShloMosaic.Init

noncomputable section

namespace Cert.Proof

open Idealize.ShloMosaic Idealize.SL.Sem

/-- Both idealized programs, from memories agreeing on the arguments, end with the result array at the reference's last
    stage of the kernel side's arguments: the kernel by its run with the result array named and `Result.result`, the
    reference by its generated run read stage by stage, its arguments rewritten by the agreement. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Result.result m ρ c), (h c).2⟩)
      (Cert.KernelIdeal.ValueRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v52_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
